-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 66
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S1x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelHost.lean ====
/-
  The host side of the kernel's program, read: what each kernel region's operand arrays hold when the region is
  entered, as functions of the launch contents.

  Before each region @main computes the neighbour mean of a feature array along the edge lists — a gather of the
  source rows, a scatter-add into the destination rows, a division by the in-degree clamped below at one — and reshapes
  a bias vector to one row. The neighbour mean is named as ONE function `nbrMean` of the feature array and the two
  edge lists and is never opened: the first region enters with the mean of the input features, the second with the
  mean of what the first region wrote. No host operation and no region writes an argument array.
-/
import proofs.«157182_j90658169683982_1_alg».proof.Proof.Gen.KernelIdeal.Frame
import Idealize.ShloMosaic.Lib.StableHlo.Run

set_option maxRecDepth 16384

noncomputable section

namespace Cert.Sage.Host

open Idealize.ShloMosaic Idealize.ShloMosaic.TcCoe Idealize.SL.Sem Idealize.ShloMosaic.StableHlo
open Cert.KernelIdeal Cert.KernelIdeal.Gen

variable {F : FTy → Type} [FloatOps F]

/-- The mean of the neighbours' feature rows: gather the rows `h[src]` (a negative index wrapped by the node count),
    add them into the rows `dst` of a zero array, and divide row by row by the number of edges into the node, at least
    one. -/
def nbrMean (h : (⟨S50000x128, .f32⟩ : BufTy).Contents (Elt F)) (src dst : (⟨S800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

variable (m : (ℓ : Loc nD τ sig) → Buf (Elt F) ℓ) (ρ : Dev nD → PrngReg)

/-! ## The argument arrays at each boundary -/

theorem W1_arg0 (c : Dev nD) : W1 m ρ c (Proc.devRef .tc main_arg0) = m ((c : Thread nD τ).loc main_arg0) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg1 (c : Dev nD) : W1 m ρ c (Proc.devRef .tc main_arg1) = m ((c : Thread nD τ).loc main_arg1) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg2 (c : Dev nD) : W1 m ρ c (Proc.devRef .tc main_arg2) = m ((c : Thread nD τ).loc main_arg2) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg3 (c : Dev nD) : W1 m ρ c (Proc.devRef .tc main_arg3) = m ((c : Thread nD τ).loc main_arg3) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg4 (c : Dev nD) : W1 m ρ c (Proc.devRef .tc main_arg4) = m ((c : Thread nD τ).loc main_arg4) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg8 (c : Dev nD) : W1 m ρ c (Proc.devRef .tc main_arg8) = m ((c : Thread nD τ).loc main_arg8) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W1_arg10 (c : Dev nD) : W1 m ρ c (Proc.devRef .tc main_arg10) = m ((c : Thread nD τ).loc main_arg10) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W1_arg6 (c : Dev nD) : W1 m ρ c (Proc.devRef .tc main_arg6) = m ((c : Thread nD τ).loc main_arg6) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W2_arg6 (c : Dev nD) : W2 m ρ c (Proc.devRef .tc main_arg6) = m ((c : Thread nD τ).loc main_arg6) :=
  (W2_of_ne m ρ c main_arg6 (by decide)).trans (W1_arg6 m ρ c)

theorem W3_arg6 (c : Dev nD) : W3 m ρ c (Proc.devRef .tc main_arg6) = m ((c : Thread nD τ).loc main_arg6) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) : W3 m ρ c (Proc.devRef .tc main_arg6) = W2 m ρ c (Proc.devRef .tc main_arg6)).trans (W2_arg6 m ρ c)

theorem W1_arg7 (c : Dev nD) : W1 m ρ c (Proc.devRef .tc main_arg7) = m ((c : Thread nD τ).loc main_arg7) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W2_arg7 (c : Dev nD) : W2 m ρ c (Proc.devRef .tc main_arg7) = m ((c : Thread nD τ).loc main_arg7) :=
  (W2_of_ne m ρ c main_arg7 (by decide)).trans (W1_arg7 m ρ c)

theorem W3_arg7 (c : Dev nD) : W3 m ρ c (Proc.devRef .tc main_arg7) = m ((c : Thread nD τ).loc main_arg7) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) : W3 m ρ c (Proc.devRef .tc main_arg7) = W2 m ρ c (Proc.devRef .tc main_arg7)).trans (W2_arg7 m ρ c)

theorem W1_arg9 (c : Dev nD) : W1 m ρ c (Proc.devRef .tc main_arg9) = m ((c : Thread nD τ).loc main_arg9) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem W2_arg9 (c : Dev nD) : W2 m ρ c (Proc.devRef .tc main_arg9) = m ((c : Thread nD τ).loc main_arg9) :=
  (W2_of_ne m ρ c main_arg9 (by decide)).trans (W1_arg9 m ρ c)

theorem W3_arg9 (c : Dev nD) : W3 m ρ c (Proc.devRef .tc main_arg9) = m ((c : Thread nD τ).loc main_arg9) :=
  ((StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) : W3 m ρ c (Proc.devRef .tc main_arg9) = W2 m ρ c (Proc.devRef .tc main_arg9)).trans (W2_arg9 m ρ c)

/-- The second stretch of host operations leaves the first region's output array as the region left it. -/
theorem W3_hidden (c : Dev nD) : W3 m ρ c (Proc.devRef .tc main_v20) = W2 m ρ c (Proc.devRef .tc main_v20) :=
  (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## What the first region enters with -/

set_option maxHeartbeats 4000000 in
/-- Its aggregated-feature operand: the neighbour mean of the input features. -/
theorem entry0_agg (c : Dev nD) : V1 m ρ c main_v18
    = nbrMean (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
/-- Its bias operand: the first bias vector as one row. -/
theorem entry0_bias (c : Dev nD) : V1 m ρ c main_v19
    = shapeCast S1x128 (m ((c : Thread nD τ).loc main_arg5)) shapeCasts_S128_S1x128 := by
  show StableHlo.after hostOps0 (W0 m ρ c) (Proc.devRef .tc main_v19) = _
  after_results_simp
  rfl

/-! ## What the second region enters with -/

set_option maxHeartbeats 4000000 in
/-- Its aggregated-feature operand: the neighbour mean of the first region's output array. -/
theorem entry1_agg (c : Dev nD) : V3 m ρ c main_v39
    = nbrMean (W2 m ρ c (Proc.devRef .tc main_v20)) (m ((c : Thread nD τ).loc main_arg1)) (m ((c : Thread nD τ).loc main_arg2)) := by
  rw [← W2_arg1 m ρ c, ← W2_arg2 m ρ c]
  show StableHlo.after hostOps1 (W2 m ρ c) (Proc.devRef .tc main_v39) = _
  after_results_simp
  rfl

set_option maxHeartbeats 4000000 in
/-- Its layer-bias operand: the second bias vector as one row. -/
theorem entry1_bias (c : Dev nD) : V3 m ρ c main_v40
    = shapeCast S1x128 (m ((c : Thread nD τ).loc main_arg8)) shapeCasts_S128_S1x128 := by
  rw [← W2_arg8 m ρ c]
  show StableHlo.after hostOps1 (W2 m ρ c) (Proc.devRef .tc main_v40) = _
  after_results_simp
  rfl

set_option maxHeartbeats 4000000 in
/-- Its output-bias operand: the output bias vector as one row. -/
theorem entry1_bout (c : Dev nD) : V3 m ρ c main_v41
    = shapeCast S1x64 (m ((c : Thread nD τ).loc main_arg10)) shapeCasts_S64_S1x64 := by
  rw [← W2_arg10 m ρ c]
  show StableHlo.after hostOps1 (W2 m ρ c) (Proc.devRef .tc main_v41) = _
  after_results_simp
  rfl

end Cert.Sage.Host

end
-- ==== Proof.Spec.lean ====
/-
  The mathematics of the two dense stages, index by index, over the extended reals.

  One graph-convolution layer maps node features `h`, aggregated neighbour features `agg`, two square weight matrices
  and a bias row to `max (h · Ws + agg · Wn + b) 0`; the output stage maps features, a weight matrix and a bias row to
  `h · Wo + bo`. Entry (r, c) of either depends on row r of the feature operands only, so both are stated for ANY number
  of rows `N`: the same definition reads a block of rows and the whole array, and a block of the whole array's result is
  the result of the block (`layer_rows`, `proj_rows`).
-/
import Idealize.ShloMosaic.Lib.ValueIdx
import Idealize.ShloMosaic.PureOps.Ideal.Laws

noncomputable section

open scoped BigOperators

namespace Cert.Sage

open Idealize.ShloMosaic Idealize.ShloMosaic.ValueIdx

/-- The zero every rectifier compares against: the f32 pattern of all zero bits, kept as a pattern (both programs
    spell the same word, so it is never evaluated). -/
abbrev zero32 : EReal := Ideal.ofBits .f32 0x00000000#32

/-- Entry (r, c) of `max (h · Ws + agg · Wn + b) 0`: two sums over the 128 input features of row r, the bias of
    column c, the rectifier. -/
def layerAt {N : Nat} (h agg : (⟨2, ![N, 128]⟩ : Shape).Idx → EReal) (ws wn : (⟨2, ![128, 128]⟩ : Shape).Idx → EReal)
    (b : Fin 128 → EReal) (r : Fin N) (c : Fin 128) : EReal :=
  max ((∑ k : Fin 128, h (ix2 r k) * ws (ix2 k c)) + (∑ k : Fin 128, agg (ix2 r k) * wn (ix2 k c)) + b c) zero32

/-- One layer on `N` rows. -/
def layer {N : Nat} (h agg : (⟨2, ![N, 128]⟩ : Shape).Idx → EReal) (ws wn : (⟨2, ![128, 128]⟩ : Shape).Idx → EReal)
    (b : Fin 128 → EReal) : (⟨2, ![N, 128]⟩ : Shape).Idx → EReal :=
  fun i => layerAt h agg ws wn b (i 0) (i 1)

theorem layer_apply {N : Nat} (h agg : (⟨2, ![N, 128]⟩ : Shape).Idx → EReal) (ws wn : (⟨2, ![128, 128]⟩ : Shape).Idx → EReal)
    (b : Fin 128 → EReal) (r : Fin N) (c : Fin 128) : layer h agg ws wn b (ix2 r c) = layerAt h agg ws wn b r c := rfl

/-- Entry (r, c) of `h · Wo + bo`. -/
def projAt {N : Nat} (h : (⟨2, ![N, 128]⟩ : Shape).Idx → EReal) (wo : (⟨2, ![128, 64]⟩ : Shape).Idx → EReal)
    (bo : Fin 64 → EReal) (r : Fin N) (c : Fin 64) : EReal :=
  (∑ k : Fin 128, h (ix2 r k) * wo (ix2 k c)) + bo c

/-- The output stage on `N` rows. -/
def proj {N : Nat} (h : (⟨2, ![N, 128]⟩ : Shape).Idx → EReal) (wo : (⟨2, ![128, 64]⟩ : Shape).Idx → EReal)
    (bo : Fin 64 → EReal) : (⟨2, ![N, 64]⟩ : Shape).Idx → EReal :=
  fun i => projAt h wo bo (i 0) (i 1)

theorem proj_apply {N : Nat} (h : (⟨2, ![N, 128]⟩ : Shape).Idx → EReal) (wo : (⟨2, ![128, 64]⟩ : Shape).Idx → EReal)
    (bo : Fin 64 → EReal) (r : Fin N) (c : Fin 64) : proj h wo bo (ix2 r c) = projAt h wo bo r c := rfl

/-- A layer's entry (r, c) reads row r of the feature operands, column c of the weights and entry c of the bias, and
    nothing else: operands (on possibly different numbers of rows) that agree there give the same entry. -/
theorem layerAt_congr {N N' : Nat} (h agg : (⟨2, ![N, 128]⟩ : Shape).Idx → EReal) (h' agg' : (⟨2, ![N', 128]⟩ : Shape).Idx → EReal)
    (ws wn ws' wn' : (⟨2, ![128, 128]⟩ : Shape).Idx → EReal) (b b' : Fin 128 → EReal) (r : Fin N) (r' : Fin N') (c c' : Fin 128)
    (hh : ∀ k : Fin 128, h (ix2 r k) = h' (ix2 r' k)) (ha : ∀ k : Fin 128, agg (ix2 r k) = agg' (ix2 r' k))
    (hs : ∀ k : Fin 128, ws (ix2 k c) = ws' (ix2 k c')) (hn : ∀ k : Fin 128, wn (ix2 k c) = wn' (ix2 k c'))
    (hb : b c = b' c') :
    layerAt h agg ws wn b r c = layerAt h' agg' ws' wn' b' r' c' := by
  unfold layerAt
  simp only [hh, ha, hs, hn, hb]

/-- The same for the output stage. -/
theorem projAt_congr {N N' : Nat} (h : (⟨2, ![N, 128]⟩ : Shape).Idx → EReal) (h' : (⟨2, ![N', 128]⟩ : Shape).Idx → EReal)
    (wo wo' : (⟨2, ![128, 64]⟩ : Shape).Idx → EReal) (bo bo' : Fin 64 → EReal) (r : Fin N) (r' : Fin N') (c c' : Fin 64)
    (hh : ∀ k : Fin 128, h (ix2 r k) = h' (ix2 r' k)) (hw : ∀ k : Fin 128, wo (ix2 k c) = wo' (ix2 k c'))
    (hb : bo c = bo' c') :
    projAt h wo bo r c = projAt h' wo' bo' r' c' := by
  unfold projAt
  simp only [hh, hw, hb]

end Cert.Sage

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Pay.lean ====
/-
  What each kernel body stores, as mathematics: on the extended reals the first body's stored block is one layer of
  its loaded blocks, and the second body's is the output stage of one layer of its loaded blocks. Roundings to bf16
  are the identity, a matrix product into the zero accumulator is the sum over the contracted coordinate, the bias
  block of one row is read at row 0 whatever the output row.
-/
import proofs.«157182_j90658169683982_1_alg».proof.Proof.Gen.KernelIdeal.Skeleton
import proofs.«157182_j90658169683982_1_alg».proof.Proof.Spec
import proofs.«157182_j90658169683982_1_alg».proof.Proof.LibDot
import Idealize.ShloMosaic.Lib.Pipeline.Value

noncomputable section

open scoped BigOperators

namespace Cert.Sage

open Idealize.ShloMosaic Idealize.ShloMosaic.ValueIdx Cert.KernelIdeal Cert.KernelIdeal.Gen

/-- A one-row block broadcast along the rows reads, at (r, c), the block's entry (0, c). -/
theorem bcastRow128 (x : Vec Ideal S1x128 .f32) (r : Fin 5000) (c : Fin 128) :
    broadcastTo S5000x128 x broadcasts_S1x128_S5000x128 (ix2 r c) = x (ix2 0 c) :=
  broadcastTo_apply x _ (ix2 r c) (ix2 0 c) (fun a => by
    match a with
    | ⟨0, _⟩ => rfl
    | ⟨1, _⟩ => rfl)

theorem bcastRow64 (x : Vec Ideal S1x64 .f32) (r : Fin 5000) (c : Fin 64) :
    broadcastTo S5000x64 x broadcasts_S1x64_S5000x64 (ix2 r c) = x (ix2 0 c) :=
  broadcastTo_apply x _ (ix2 r c) (ix2 0 c) (fun a => by
    match a with
    | ⟨0, _⟩ => rfl
    | ⟨1, _⟩ => rfl)

/-- The first body's stored block is one layer of the loaded blocks. -/
theorem pay0 (x0 x1 : Vec Ideal S5000x128 .f32) (x2 x3 : Vec Ideal S128x128 .f32) (x4 : Vec Ideal S1x128 .f32) :
    k0_pay1 (F := Ideal) x0 x1 x2 x3 x4 = layer x0 x1 x2 x3 (fun c => x4 (ix2 0 c)) := by
  funext j
  obtain ⟨r, c, rfl⟩ : ∃ (r : Fin 5000) (c : Fin 128), j = ix2 r c := ⟨j 0, j 1, eq_ix2 j⟩
  rw [layer_apply]
  unfold k0_pay1 layerAt
  dsimp only
  rw [maximumf_apply, addf_apply, addf_apply,
    LibDot.matmul_10_zero_apply dot_S5000x128_S128x128_S5000x128_1_0_0_1_n_n rfl rfl rfl rfl rfl rfl,
    LibDot.matmul_10_zero_apply dot_S5000x128_S128x128_S5000x128_1_0_0_1_n_n rfl rfl rfl rfl rfl rfl,
    bcastRow128]
  simp only [truncf_apply, shapeCast_self, broadcast_apply]
  rfl

/-- The second body's stored block is the output stage of one layer of the loaded blocks. -/
theorem pay1 (x0 x1 : Vec Ideal S5000x128 .f32) (x2 x3 : Vec Ideal S128x128 .f32) (x4 : Vec Ideal S1x128 .f32)
    (x5 : Vec Ideal S128x64 .f32) (x6 : Vec Ideal S1x64 .f32) :
    k1_pay1 (F := Ideal) x0 x1 x2 x3 x4 x5 x6
      = proj (layer x0 x1 x2 x3 (fun c => x4 (ix2 0 c))) x5 (fun c => x6 (ix2 0 c)) := by
  funext j
  obtain ⟨r, c, rfl⟩ : ∃ (r : Fin 5000) (c : Fin 64), j = ix2 r c := ⟨j 0, j 1, eq_ix2 j⟩
  rw [proj_apply]
  unfold k1_pay1 projAt
  dsimp only
  rw [addf_apply,
    LibDot.matmul_10_zero_apply dot_S5000x128_S128x64_S5000x64_1_0_0_1_n_n rfl rfl rfl rfl rfl rfl,
    bcastRow64]
  simp only [truncf_apply, shapeCast_self]
  refine congrArg (fun s : EReal => s + x6 (ix2 0 c)) (Finset.sum_congr rfl fun k _ => congrArg (fun s : EReal => s * x5 (ix2 k c)) ?_)
  rw [layer_apply]
  unfold layerAt
  rw [maximumf_apply, addf_apply, addf_apply,
    LibDot.matmul_10_zero_apply dot_S5000x128_S128x128_S5000x128_1_0_0_1_n_n rfl rfl rfl rfl rfl rfl,
    LibDot.matmul_10_zero_apply dot_S5000x128_S128x128_S5000x128_1_0_0_1_n_n rfl rfl rfl rfl rfl rfl,
    bcastRow128]
  simp only [truncf_apply, shapeCast_self, broadcast_apply]
  rfl

end Cert.Sage

end
-- ==== Proof.Region0.lean ====
/-
  The first kernel region, at any contents `V` its arrays are entered with: the array its output window writes ends
  holding one layer of the four operand arrays and the bias row, on all 50000 rows.

  Grid point t stages rows 5000·q … 5000·q + 4999 of the two feature arrays (q the block index the point's index map
  gives, the same for both and for the output) and the whole of each weight matrix and of the bias row; what it writes
  back is one layer of those blocks, which is rows 5000·q … of one layer of the whole arrays because a layer's row
  reads only that row of the features. The ten blocks tile the 50000 rows.
-/
import proofs.«157182_j90658169683982_1_alg».proof.Proof.Gen.KernelIdeal.Frame
import proofs.«157182_j90658169683982_1_alg».proof.Proof.Pay
import Idealize.ShloMosaic.Lib.Pipeline.Value

set_option maxRecDepth 16384

noncomputable section

open scoped BigOperators

namespace Cert.Sage.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two feature windows move with the output window along the rows; the weights and
    the bias row stay at block (0, 0); the output's row block is one of the ten. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Each of the ten row blocks is some point's. -/
theorem idx_onto : ∀ q : Fin 10, ∃ t : Fin cfg0.N, win0_5.index t = ![q.val, 0] :=
  (by decide +kernel : ∀ q : Fin 10, ∃ t : Fin grid0.N, win0_5.index t = ![q.val, 0])

/-- The first feature window's block at a point, read in the array. -/
theorem feat_read (c : Dev nD) (t : Fin cfg0.N) (y : S5000x128.Idx) (i : S50000x128.Idx)
    (h0 : (i 0).val = win0_5.index t (0 : Fin 2) * 5000 + (y 0).val) (h1 : (i 1).val = (y 1).val) :
    iblk0 V c 0 t y = V c main_arg0 i := by
  show V c main_arg0 (((cfg0.win 0).blk t).view.emb y) = V c main_arg0 i
  refine congrArg _ (funext fun a => Fin.ext ?_)
  obtain ⟨e0, e1, -⟩ := idx_facts t
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The aggregated-feature window's block at a point, read in the array. -/
theorem agg_read (c : Dev nD) (t : Fin cfg0.N) (y : S5000x128.Idx) (i : S50000x128.Idx)
    (h0 : (i 0).val = win0_5.index t (0 : Fin 2) * 5000 + (y 0).val) (h1 : (i 1).val = (y 1).val) :
    iblk0 V c 1 t y = V c main_v18 i := by
  show V c main_v18 (((cfg0.win 1).blk t).view.emb y) = V c main_v18 i
  refine congrArg _ (funext fun a => Fin.ext ?_)
  obtain ⟨-, -, e2, e3, -⟩ := idx_facts t
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- Each weight window's block is its whole array. -/
theorem wself_read (c : Dev nD) (t : Fin cfg0.N) (y : S128x128.Idx) : iblk0 V c 2 t y = V c main_arg3 y := by
  show V c main_arg3 (((cfg0.win 2).blk t).view.emb y) = V c main_arg3 y
  refine congrArg _ (funext fun a => Fin.ext ?_)
  obtain ⟨-, -, -, -, e4, e5, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem wneigh_read (c : Dev nD) (t : Fin cfg0.N) (y : S128x128.Idx) : iblk0 V c 3 t y = V c main_arg4 y := by
  show V c main_arg4 (((cfg0.win 3).blk t).view.emb y) = V c main_arg4 y
  refine congrArg _ (funext fun a => Fin.ext ?_)
  obtain ⟨-, -, -, -, -, -, e6, e7, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is its whole one-row array. -/
theorem bias_read (c : Dev nD) (t : Fin cfg0.N) (y : S1x128.Idx) : iblk0 V c 4 t y = V c main_v19 y := by
  show V c main_v19 (((cfg0.win 4).blk t).view.emb y) = V c main_v19 y
  refine congrArg _ (funext fun a => Fin.ext ?_)
  obtain ⟨-, -, -, -, -, -, -, -, e8, e9, -⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- One layer of the region's operand arrays as it finds them. -/
abbrev G (c : Dev nD) : S50000x128.Idx → EReal :=
  layer (V c main_arg0) (V c main_v18) (V c main_arg3) (V c main_arg4) (fun k => V c main_v19 (ix2 0 k))

/-- What a point writes back is its block of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0]
  funext j
  obtain ⟨r, k, rfl⟩ : ∃ (r : Fin 5000) (k : Fin 128), j = ix2 r k := ⟨j 0, j 1, eq_ix2 j⟩
  obtain ⟨-, -, -, -, -, -, -, -, -, -, e10, e11⟩ := idx_facts t
  have hr := r.isLt
  have hrow : win0_5.index t (0 : Fin 2) * 5000 + r.val < 50000 := by omega
  have hemb : ((cfg0.win 5).blk t).view.emb (ix2 r k)
      = ix2 (⟨win0_5.index t (0 : Fin 2) * 5000 + r.val, hrow⟩ : Fin 50000) k := by
    funext a; apply Fin.ext
    match a with
    | ⟨0, _⟩ => show win0_5.index t (0 : Fin 2) * 5000 + 1 * r.val = win0_5.index t (0 : Fin 2) * 5000 + r.val; omega
    | ⟨1, _⟩ => show win0_5.index t (1 : Fin 2) * 128 + 1 * k.val = k.val; omega
  show layerAt _ _ _ _ _ r k = G V c (((cfg0.win 5).blk t).view.emb (ix2 r k))
  rw [hemb]
  show layerAt _ _ _ _ _ r k = layerAt (V c main_arg0) (V c main_v18) (V c main_arg3) (V c main_arg4) (fun k => V c main_v19 (ix2 0 k)) ⟨win0_5.index t (0 : Fin 2) * 5000 + r.val, hrow⟩ k
  exact layerAt_congr _ _ _ _ _ _ _ _ _ _ r _ k k
    (fun k' => feat_read V c t (ix2 r k') (ix2 _ k') rfl rfl)
    (fun k' => agg_read V c t (ix2 r k') (ix2 _ k') rfl rfl)
    (fun k' => wself_read V c t (ix2 k' k))
    (fun k' => wneigh_read V c t (ix2 k' k))
    (bias_read V c t (ix2 0 k))

/-- An index of the array is in a point's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The ten blocks tile the array. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The region's output array after its ten write-backs. -/
theorem final (c : Dev nD) : (dat0 V c).arrAt 5 cfg0.N = G V c :=
  (dat0 V c).arrAt_eq_of_cover 5 (G V c) (fun t _ => flushed_eq V c t) cover

end Cert.Sage.Region0

end
-- ==== Proof.Region1.lean ====
/-
  The second kernel region, at any contents `V` its arrays are entered with: the array its output window writes ends
  holding the output stage of one layer of the operand arrays, on all 50000 rows.

  Grid point t stages rows 5000·q … 5000·q + 4999 of the two feature arrays (q the block index its index map gives, the
  same for both and for the output), and the whole of the three weight matrices and the two bias rows; it writes back
  the output stage of one layer of those blocks. Both stages read, for an output row, that row of the features only,
  so this is rows 5000·q … of the output stage of one layer of the whole arrays. The ten blocks tile the 50000 rows.
-/
import proofs.«157182_j90658169683982_1_alg».proof.Proof.Gen.KernelIdeal.Frame
import proofs.«157182_j90658169683982_1_alg».proof.Proof.Pay
import Idealize.ShloMosaic.Lib.Pipeline.Value

set_option maxRecDepth 16384

noncomputable section

open scoped BigOperators

namespace Cert.Sage.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two feature windows move with the output window along the rows; the weights and
    the bias rows stay at block (0, 0); the output's row block is one of the ten. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 ∧ win1_7.index t (1 : Fin 2) = 0 :=
  (by decide +kernel : ∀ t : Fin grid1.N, _)

/-- Each of the ten row blocks is some point's. -/
theorem idx_onto : ∀ q : Fin 10, ∃ t : Fin cfg1.N, win1_7.index t = ![q.val, 0] :=
  (by decide +kernel : ∀ q : Fin 10, ∃ t : Fin grid1.N, win1_7.index t = ![q.val, 0])

/-- The hidden-feature window's block at a point, read in the array. -/
theorem feat_read (c : Dev nD) (t : Fin cfg1.N) (y : S5000x128.Idx) (i : S50000x128.Idx)
    (h0 : (i 0).val = win1_7.index t (0 : Fin 2) * 5000 + (y 0).val) (h1 : (i 1).val = (y 1).val) :
    iblk1 V c 0 t y = V c main_v20 i := by
  show V c main_v20 (((cfg1.win 0).blk t).view.emb y) = V c main_v20 i
  refine congrArg _ (funext fun a => Fin.ext ?_)
  obtain ⟨e0, e1, -⟩ := idx_facts t
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The aggregated-feature window's block at a point, read in the array. -/
theorem agg_read (c : Dev nD) (t : Fin cfg1.N) (y : S5000x128.Idx) (i : S50000x128.Idx)
    (h0 : (i 0).val = win1_7.index t (0 : Fin 2) * 5000 + (y 0).val) (h1 : (i 1).val = (y 1).val) :
    iblk1 V c 1 t y = V c main_v39 i := by
  show V c main_v39 (((cfg1.win 1).blk t).view.emb y) = V c main_v39 i
  refine congrArg _ (funext fun a => Fin.ext ?_)
  obtain ⟨-, -, e2, e3, -⟩ := idx_facts t
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Each weight window's block is its whole array. -/
theorem wself_read (c : Dev nD) (t : Fin cfg1.N) (y : S128x128.Idx) : iblk1 V c 2 t y = V c main_arg6 y := by
  show V c main_arg6 (((cfg1.win 2).blk t).view.emb y) = V c main_arg6 y
  refine congrArg _ (funext fun a => Fin.ext ?_)
  obtain ⟨-, -, -, -, e4, e5, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem wneigh_read (c : Dev nD) (t : Fin cfg1.N) (y : S128x128.Idx) : iblk1 V c 3 t y = V c main_arg7 y := by
  show V c main_arg7 (((cfg1.win 3).blk t).view.emb y) = V c main_arg7 y
  refine congrArg _ (funext fun a => Fin.ext ?_)
  obtain ⟨-, -, -, -, -, -, e6, e7, -⟩ := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The layer's bias window's block is its whole one-row array. -/
theorem bias_read (c : Dev nD) (t : Fin cfg1.N) (y : S1x128.Idx) : iblk1 V c 4 t y = V c main_v40 y := by
  show V c main_v40 (((cfg1.win 4).blk t).view.emb y) = V c main_v40 y
  refine congrArg _ (funext fun a => Fin.ext ?_)
  obtain ⟨-, -, -, -, -, -, -, -, e8, e9, -⟩ := idx_facts t
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The output weights' block is the whole array. -/
theorem wout_read (c : Dev nD) (t : Fin cfg1.N) (y : S128x64.Idx) : iblk1 V c 5 t y = V c main_arg9 y := by
  show V c main_arg9 (((cfg1.win 5).blk t).view.emb y) = V c main_arg9 y
  refine congrArg _ (funext fun a => Fin.ext ?_)
  obtain ⟨-, -, -, -, -, -, -, -, -, -, e10, e11, -⟩ := idx_facts t
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- The output bias window's block is its whole one-row array. -/
theorem bout_read (c : Dev nD) (t : Fin cfg1.N) (y : S1x64.Idx) : iblk1 V c 6 t y = V c main_v41 y := by
  show V c main_v41 (((cfg1.win 6).blk t).view.emb y) = V c main_v41 y
  refine congrArg _ (funext fun a => Fin.ext ?_)
  obtain ⟨-, -, -, -, -, -, -, -, -, -, -, -, e12, e13, -⟩ := idx_facts t
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- The output stage of one layer of the region's operand arrays as it finds them. -/
abbrev G (c : Dev nD) : S50000x64.Idx → EReal :=
  proj (layer (V c main_v20) (V c main_v39) (V c main_arg6) (V c main_arg7) (fun k => V c main_v40 (ix2 0 k)))
    (V c main_arg9) (fun k => V c main_v41 (ix2 0 k))

/-- What a point writes back is its block of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  rw [pay1]
  funext j
  obtain ⟨r, k, rfl⟩ : ∃ (r : Fin 5000) (k : Fin 64), j = ix2 r k := ⟨j 0, j 1, eq_ix2 j⟩
  obtain ⟨-, -, -, -, -, -, -, -, -, -, -, -, -, -, e14, e15⟩ := idx_facts t
  have hr := r.isLt
  have hrow : win1_7.index t (0 : Fin 2) * 5000 + r.val < 50000 := by omega
  have hemb : ((cfg1.win 7).blk t).view.emb (ix2 r k)
      = ix2 (⟨win1_7.index t (0 : Fin 2) * 5000 + r.val, hrow⟩ : Fin 50000) k := by
    funext a; apply Fin.ext
    match a with
    | ⟨0, _⟩ => show win1_7.index t (0 : Fin 2) * 5000 + 1 * r.val = win1_7.index t (0 : Fin 2) * 5000 + r.val; omega
    | ⟨1, _⟩ => show win1_7.index t (1 : Fin 2) * 64 + 1 * k.val = k.val; omega
  show projAt _ _ _ r k = G V c (((cfg1.win 7).blk t).view.emb (ix2 r k))
  rw [hemb]
  show projAt _ _ _ r k = projAt (layer (V c main_v20) (V c main_v39) (V c main_arg6) (V c main_arg7) (fun k => V c main_v40 (ix2 0 k)))
    (V c main_arg9) (fun k => V c main_v41 (ix2 0 k)) ⟨win1_7.index t (0 : Fin 2) * 5000 + r.val, hrow⟩ k
  refine projAt_congr _ _ _ _ _ _ r _ k k (fun k' => ?_) (fun k' => wout_read V c t (ix2 k' k)) (bout_read V c t (ix2 0 k))
  rw [layer_apply, layer_apply]
  exact layerAt_congr _ _ _ _ _ _ _ _ _ _ r _ k' k'
    (fun k'' => feat_read V c t (ix2 r k'') (ix2 _ k'') rfl rfl)
    (fun k'' => agg_read V c t (ix2 r k'') (ix2 _ k'') rfl rfl)
    (fun k'' => wself_read V c t (ix2 k'' k'))
    (fun k'' => wneigh_read V c t (ix2 k'' k'))
    (bias_read V c t (ix2 0 k'))

/-- An index of the array is in a point's block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v42).slice (win1_7.rect t)).set ↔ _
  rw [View.set_slice_whole, Rect.mem_set_unit]
  exact Iff.rfl

/-- The ten blocks tile the array. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The region's output array after its ten write-backs. -/
theorem final (c : Dev nD) : (dat1 V c).arrAt 7 cfg1.N = G V c :=
  (dat1 V c).arrAt_eq_of_cover 7 (G V c) (fun t _ => flushed_eq V c t) cover

end Cert.Sage.Region1

end
-- ==== Proof.KernelValue.lean ====
/-
  The kernel's program as a whole: after @main's two host stretches and two kernel regions the result buffer holds
  the output stage of the second layer, each layer taking the features and their neighbour mean — the same composite
  the reference computes, over the neighbour mean kept as one function.
-/
import proofs.«157182_j90658169683982_1_alg».proof.Proof.KernelIdealRun
import proofs.«157182_j90658169683982_1_alg».proof.Proof.KernelHost
import proofs.«157182_j90658169683982_1_alg».proof.Proof.Region0
import proofs.«157182_j90658169683982_1_alg».proof.Proof.Region1
import Idealize.ShloMosaic.Lib.Pipeline.Value

set_option maxRecDepth 16384

noncomputable section

open scoped BigOperators

namespace Cert.Sage.Kernel

open Idealize.ShloMosaic Idealize.ShloMosaic.TcCoe Idealize.ShloMosaic.ValueIdx Idealize.SL.Sem
open Cert.KernelIdeal Cert.KernelIdeal.Gen

/-- A vector of 128 entries reshaped to one row, read at (0, k). -/
theorem row128 (b : S128.Idx → EReal) (k : Fin 128) :
    shapeCast S1x128 b shapeCasts_S128_S1x128 (ix2 (0 : Fin 1) k) = b (ix1 k) :=
  shapeCast_apply b _ (ix2 (0 : Fin 1) k) (ix1 k) (by
    rw [Shape.rowMajor_val_one, Shape.rowMajor_val_two]
    show k.val = 0 * 128 + k.val
    omega)

/-- A vector of 64 entries reshaped to one row, read at (0, k). -/
theorem row64 (b : S64.Idx → EReal) (k : Fin 64) :
    shapeCast S1x64 b shapeCasts_S64_S1x64 (ix2 (0 : Fin 1) k) = b (ix1 k) :=
  shapeCast_apply b _ (ix2 (0 : Fin 1) k) (ix1 k) (by
    rw [Shape.rowMajor_val_one, Shape.rowMajor_val_two]
    show k.val = 0 * 64 + k.val
    omega)

variable (m : (ℓ : Loc nD τ sig) → Buf (Elt Ideal) ℓ) (ρ : Dev nD → PrngReg)

/-- The first hidden array: one layer of the input features and their neighbour mean. -/
def hidden1 (c : Dev nD) : S50000x128.Idx → EReal :=
  layer (m ((c : Thread nD τ).loc main_arg0)) (Host.nbrMean (F := Ideal) (m ((c : Thread nD τ).loc main_arg0)) (m ((c : Thread nD τ).loc main_arg1)) (m ((c : Thread nD τ).loc main_arg2))) (m ((c : Thread nD τ).loc main_arg3)) (m ((c : Thread nD τ).loc main_arg4))
    (fun k => (m ((c : Thread nD τ).loc main_arg5)) (ix1 k))

/-- The result: the output stage of one layer of the first hidden array and ITS neighbour mean. -/
def result (c : Dev nD) : S50000x64.Idx → EReal :=
  proj (layer (hidden1 m c) (Host.nbrMean (F := Ideal) (hidden1 m c) (m ((c : Thread nD τ).loc main_arg1)) (m ((c : Thread nD τ).loc main_arg2))) (m ((c : Thread nD τ).loc main_arg6)) (m ((c : Thread nD τ).loc main_arg7))
      (fun k => (m ((c : Thread nD τ).loc main_arg8)) (ix1 k)))
    (m ((c : Thread nD τ).loc main_arg9)) (fun k => (m ((c : Thread nD τ).loc main_arg10)) (ix1 k))

/-- What the first region leaves in its output array. -/
theorem exit0 (c : Dev nD) : W2 m ρ c (Proc.devRef .tc main_v20) = hidden1 m c := by
  refine (W2_arr m ρ c 5).trans ?_
  rw [Region0.final (V1 m ρ) c]
  have e0 : V1 m ρ c main_arg0 = (m ((c : Thread nD τ).loc main_arg0)) := Host.W1_arg0 m ρ c
  have e3 : V1 m ρ c main_arg3 = (m ((c : Thread nD τ).loc main_arg3)) := Host.W1_arg3 m ρ c
  have e4 : V1 m ρ c main_arg4 = (m ((c : Thread nD τ).loc main_arg4)) := Host.W1_arg4 m ρ c
  show layer (V1 m ρ c main_arg0) (V1 m ρ c main_v18) (V1 m ρ c main_arg3) (V1 m ρ c main_arg4)
    (fun k => V1 m ρ c main_v19 (ix2 0 k)) = _
  rw [e0, e3, e4, Host.entry0_agg, Host.entry0_bias]
  have hb : (fun k : Fin 128 => shapeCast S1x128 (m ((c : Thread nD τ).loc main_arg5)) shapeCasts_S128_S1x128 (ix2 (0 : Fin 1) k))
      = fun k => (m ((c : Thread nD τ).loc main_arg5)) (ix1 k) := funext fun k => row128 _ k
  unfold hidden1
  exact congrArg (layer _ _ _ _) hb

/-- What the second region leaves in its output array. -/
theorem exit1 (c : Dev nD) : W4 m ρ c (Proc.devRef .tc main_v42) = result m c := by
  refine (W4_arr m ρ c 7).trans ?_
  rw [Region1.final (V3 m ρ) c]
  have e20 : V3 m ρ c main_v20 = hidden1 m c := (Host.W3_hidden m ρ c).trans (exit0 m ρ c)
  have e39 : V3 m ρ c main_v39 = Host.nbrMean (F := Ideal) (hidden1 m c) (m ((c : Thread nD τ).loc main_arg1)) (m ((c : Thread nD τ).loc main_arg2)) :=
    (Host.entry1_agg m ρ c).trans (by rw [exit0])
  have e6 : V3 m ρ c main_arg6 = (m ((c : Thread nD τ).loc main_arg6)) := Host.W3_arg6 m ρ c
  have e7 : V3 m ρ c main_arg7 = (m ((c : Thread nD τ).loc main_arg7)) := Host.W3_arg7 m ρ c
  have e9 : V3 m ρ c main_arg9 = (m ((c : Thread nD τ).loc main_arg9)) := Host.W3_arg9 m ρ c
  show proj (layer (V3 m ρ c main_v20) (V3 m ρ c main_v39) (V3 m ρ c main_arg6) (V3 m ρ c main_arg7)
      (fun k => V3 m ρ c main_v40 (ix2 0 k))) (V3 m ρ c main_arg9) (fun k => V3 m ρ c main_v41 (ix2 0 k)) = _
  rw [e20, e39, e6, e7, e9, Host.entry1_bias, Host.entry1_bout]
  have hb : (fun k : Fin 128 => shapeCast S1x128 (m ((c : Thread nD τ).loc main_arg8)) shapeCasts_S128_S1x128 (ix2 (0 : Fin 1) k))
      = fun k => (m ((c : Thread nD τ).loc main_arg8)) (ix1 k) := funext fun k => row128 _ k
  have ho : (fun k : Fin 64 => shapeCast S1x64 (m ((c : Thread nD τ).loc main_arg10)) shapeCasts_S64_S1x64 (ix2 (0 : Fin 1) k))
      = fun k => (m ((c : Thread nD τ).loc main_arg10)) (ix1 k) := funext fun k => row64 _ k
  rw [hb, ho]
  rfl

/-- Every weakly fair execution of the kernel's program terminates, nothing faulting, with the result buffer at
    `result` of the launch contents and the argument arrays as launched. -/
theorem run : θ_run defs (onTc (τ := τ) (main (F := Ideal))) ⟨m, fun _ => 0, ρ⟩ (fun r => ∀ c : Dev nD,
      r.2.mem ((c.tc : Thread nD τ).loc main_v42) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (exit1 m ρ c), (h c).2⟩) (Cert.KernelIdeal.RunV.run_result m ρ)

end Cert.Sage.Kernel

end
-- ==== Proof.RefSide.lean ====
/-
  The reference, stage by stage, as the same mathematics: its first hidden array is one layer of the input features
  and their neighbour means, its second the same layer of the first hidden array and ITS neighbour means, and its
  result the output stage of the second. The neighbour mean (a gather along the edges, a scatter-add into the
  destinations, a division by the clamped in-degree) is never opened: it is carried as the one function of the features
  and the two edge lists that the reference's first aggregation is, and the second aggregation is that same function
  of the first hidden array.
-/
import proofs.«157182_j90658169683982_1_alg».proof.Proof.Gen.ReferenceIdeal.Read
import proofs.«157182_j90658169683982_1_alg».proof.Proof.Spec

noncomputable section

open scoped BigOperators

namespace Cert.Sage.Ref

open Idealize.ShloMosaic Idealize.ShloMosaic.ValueIdx Cert.ReferenceIdeal Cert.ReferenceIdeal.Read

/-! ## The operand indices of each matrix product and of each bias broadcast, by coordinates -/

theorem lidx_v19 (r : Fin 50000) (c k : Fin 128) : lidx_main_v19 (ix2 r c) k = ix2 r k :=
  funext fun a => Fin.ext (by match a with | ⟨0, _⟩ => rfl | ⟨1, _⟩ => rfl)
theorem ridx_v19 (r : Fin 50000) (c k : Fin 128) : ridx_main_v19 (ix2 r c) k = ix2 k c :=
  funext fun a => Fin.ext (by match a with | ⟨0, _⟩ => rfl | ⟨1, _⟩ => rfl)
theorem lidx_v20 (r : Fin 50000) (c k : Fin 128) : lidx_main_v20 (ix2 r c) k = ix2 r k :=
  funext fun a => Fin.ext (by match a with | ⟨0, _⟩ => rfl | ⟨1, _⟩ => rfl)
theorem ridx_v20 (r : Fin 50000) (c k : Fin 128) : ridx_main_v20 (ix2 r c) k = ix2 k c :=
  funext fun a => Fin.ext (by match a with | ⟨0, _⟩ => rfl | ⟨1, _⟩ => rfl)
theorem lidx_v45 (r : Fin 50000) (c k : Fin 128) : lidx_main_v45 (ix2 r c) k = ix2 r k :=
  funext fun a => Fin.ext (by match a with | ⟨0, _⟩ => rfl | ⟨1, _⟩ => rfl)
theorem ridx_v45 (r : Fin 50000) (c k : Fin 128) : ridx_main_v45 (ix2 r c) k = ix2 k c :=
  funext fun a => Fin.ext (by match a with | ⟨0, _⟩ => rfl | ⟨1, _⟩ => rfl)
theorem lidx_v46 (r : Fin 50000) (c k : Fin 128) : lidx_main_v46 (ix2 r c) k = ix2 r k :=
  funext fun a => Fin.ext (by match a with | ⟨0, _⟩ => rfl | ⟨1, _⟩ => rfl)
theorem ridx_v46 (r : Fin 50000) (c k : Fin 128) : ridx_main_v46 (ix2 r c) k = ix2 k c :=
  funext fun a => Fin.ext (by match a with | ⟨0, _⟩ => rfl | ⟨1, _⟩ => rfl)
theorem lidx_v52 (r : Fin 50000) (c : Fin 64) (k : Fin 128) : lidx_main_v52 (ix2 r c) k = ix2 r k :=
  funext fun a => Fin.ext (by match a with | ⟨0, _⟩ => rfl | ⟨1, _⟩ => rfl)
theorem ridx_v52 (r : Fin 50000) (c : Fin 64) (k : Fin 128) : ridx_main_v52 (ix2 r c) k = ix2 k c :=
  funext fun a => Fin.ext (by match a with | ⟨0, _⟩ => rfl | ⟨1, _⟩ => rfl)
theorem bias_v23 (r : Fin 50000) (c : Fin 128) : idx_main_v22 (idx_main_v23 (ix2 r c)) = ix1 c :=
  funext fun a => Fin.ext (by match a with | ⟨0, _⟩ => rfl)
theorem bias_v49 (r : Fin 50000) (c : Fin 128) : idx_main_v48 (idx_main_v49 (ix2 r c)) = ix1 c :=
  funext fun a => Fin.ext (by match a with | ⟨0, _⟩ => rfl)
theorem bias_v54 (r : Fin 50000) (c : Fin 64) : idx_main_v53 (idx_main_v54 (ix2 r c)) = ix1 c :=
  funext fun a => Fin.ext (by match a with | ⟨0, _⟩ => rfl)

/-! ## The stages -/

variable (x0 : S50000x128.Idx → EReal) (x1 x2 : (⟨S800000, .i32⟩ : BufTy).Contents (Elt Ideal))
  (x3 x4 : S128x128.Idx → EReal) (x5 : S128.Idx → EReal) (x6 x7 : S128x128.Idx → EReal) (x8 : S128.Idx → EReal)
  (x9 : S128x64.Idx → EReal) (x10 : S64.Idx → EReal)

/-- The first hidden array: one layer of the features and their neighbour means. -/
theorem hidden1 :
    val_main_v25 (F := Ideal) x0 x1 x2 x3 x4 x5
      = layer x0 (val_main_v18 (F := Ideal) x0 x1 x2) x3 x4 (fun k => x5 (ix1 k)) := by
  funext i
  obtain ⟨r, c, rfl⟩ : ∃ (r : Fin 50000) (c : Fin 128), i = ix2 r c := ⟨i 0, i 1, eq_ix2 i⟩
  rw [layer_apply, val_main_v25_apply, val_main_v24_apply, val_main_v21_apply, val_main_v19_apply, val_main_v20_apply,
    val_main_v23_apply, val_main_v22_apply, val_main_call0_v0_apply, val_main_call0_cst_apply]
  simp only [lidx_v19, ridx_v19, lidx_v20, ridx_v20, bias_v23]
  rfl

/-- The second aggregation is the first one's function, of the first hidden array. -/
theorem agg2 :
    val_main_v44 (F := Ideal) x0 x1 x2 x3 x4 x5
      = val_main_v18 (F := Ideal) (val_main_v25 (F := Ideal) x0 x1 x2 x3 x4 x5) x1 x2 := rfl

/-- The second hidden array: one layer of the first and its neighbour means. -/
theorem hidden2 :
    val_main_v51 (F := Ideal) x0 x1 x2 x3 x4 x5 x6 x7 x8
      = layer (val_main_v25 (F := Ideal) x0 x1 x2 x3 x4 x5) (val_main_v44 (F := Ideal) x0 x1 x2 x3 x4 x5) x6 x7
          (fun k => x8 (ix1 k)) := by
  funext i
  obtain ⟨r, c, rfl⟩ : ∃ (r : Fin 50000) (c : Fin 128), i = ix2 r c := ⟨i 0, i 1, eq_ix2 i⟩
  rw [layer_apply, val_main_v51_apply, val_main_v50_apply, val_main_v47_apply, val_main_v45_apply, val_main_v46_apply,
    val_main_v49_apply, val_main_v48_apply, val_main_call1_v0_apply, val_main_call1_cst_apply]
  simp only [lidx_v45, ridx_v45, lidx_v46, ridx_v46, bias_v49]
  rfl

/-- The result: the output stage of the second hidden array. -/
theorem result :
    val_main_v55 (F := Ideal) x0 x1 x2 x3 x4 x5 x6 x7 x8 x9 x10
      = proj (val_main_v51 (F := Ideal) x0 x1 x2 x3 x4 x5 x6 x7 x8) x9 (fun k => x10 (ix1 k)) := by
  funext i
  obtain ⟨r, c, rfl⟩ : ∃ (r : Fin 50000) (c : Fin 64), i = ix2 r c := ⟨i 0, i 1, eq_ix2 i⟩
  rw [proj_apply, val_main_v55_apply, val_main_v52_apply, val_main_v54_apply, val_main_v53_apply]
  simp only [lidx_v52, ridx_v52, bias_v54]
  rfl

/-- The neighbour mean as the reference computes it. -/
abbrev nbrMean (h : S50000x128.Idx → EReal) (src dst : (⟨S800000, .i32⟩ : BufTy).Contents (Elt Ideal)) :
    S50000x128.Idx → EReal := val_main_v18 (F := Ideal) h src dst

/-- The whole reference as the two layers and the output stage over the neighbour mean. -/
theorem value :
    val_main_v55 (F := Ideal) x0 x1 x2 x3 x4 x5 x6 x7 x8 x9 x10
      = proj (layer (layer x0 (nbrMean x0 x1 x2) x3 x4 (fun k => x5 (ix1 k)))
                (nbrMean (layer x0 (nbrMean x0 x1 x2) x3 x4 (fun k => x5 (ix1 k))) x1 x2) x6 x7 (fun k => x8 (ix1 k)))
          x9 (fun k => x10 (ix1 k)) := by
  rw [result, hidden2, agg2, hidden1]

end Cert.Sage.Ref

end
-- ==== Proof.lean ====
/-
  A two-layer graph convolution with mean aggregation over the edges, followed by a linear output stage:

      h1  = max (x  · Ws1 + mean(x)  · Wn1 + b1) 0
      out = max (h1 · Ws2 + mean(h1) · Wn2 + b2) 0 · Wo + bo

  where mean(h) gathers the feature rows of the edges' sources, adds them into the rows of their destinations and
  divides each row by its in-degree clamped below at one. The kernel's program computes both means with host
  operations and the two dense stages in two pipelined kernels over ten blocks of 5000 rows (operands rounded to bf16
  on the way into each matrix product, products accumulated from zero); the reference computes everything with host
  operations. On the extended reals the roundings are the identity and a matrix product is the plain sum over the
  contracted coordinate on either side, and the two programs apply the same operations in the same order: no algebraic
  law joins them and the finiteness of the inputs is not used. The mean is never opened: both sides apply the same
  composite of host operations, carried as one function.

  Modules: Spec (the two dense stages index by index, for any number of rows), Pay (each kernel body's stored block
  is the stage of its loaded blocks), Region0 / Region1 (a region's output array after its ten write-backs is the
  stage of its operand arrays), KernelHost (what each region's operands hold on entry), KernelIdealRun (the program's
  run with the result buffer kept), KernelValue (the result buffer as a function of the arguments), RefSide (the
  reference's stages as the same functions).
-/
import proofs.«157182_j90658169683982_1_alg».proof.Defs
import proofs.«157182_j90658169683982_1_alg».proof.Proof.Gen.Kernel
import proofs.«157182_j90658169683982_1_alg».proof.Proof.Gen.Kernel.Frame
import proofs.«157182_j90658169683982_1_alg».proof.Proof.Gen.KernelIdeal
import proofs.«157182_j90658169683982_1_alg».proof.Proof.Gen.KernelIdeal.Frame
import proofs.«157182_j90658169683982_1_alg».proof.Proof.Gen.ReferenceIdeal
import proofs.«157182_j90658169683982_1_alg».proof.Proof.Gen.ReferenceIdeal.Run
import proofs.«157182_j90658169683982_1_alg».proof.Proof.Gen.ReferenceIdeal.Read
import proofs.«157182_j90658169683982_1_alg».proof.Proof.Gen.Pre_finite_inputs
import proofs.«157182_j90658169683982_1_alg».proof.Proof.KernelValue
import proofs.«157182_j90658169683982_1_alg».proof.Proof.RefSide
import Idealize.ShloMosaic.Adequacy
import Idealize.ShloMosaic.Init

noncomputable section

namespace Cert.Proof

open Idealize.ShloMosaic Idealize.SL.Sem

/-- The reference's neighbour mean is the kernel program's: the same host operations on the same operands, in the same
    order, with the same dimension records. -/
theorem nbrMean_eq (h : Cert.ReferenceIdeal.S50000x128.Idx → EReal)
    (src dst : (⟨Cert.ReferenceIdeal.S800000, .i32⟩ : BufTy).Contents (Elt Ideal)) :
    Cert.Sage.Ref.nbrMean h src dst = Cert.Sage.Host.nbrMean (F := Ideal) h src dst := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments the kernel's program ends with its result buffer at the two layers and
    the output stage of the arguments (the kernel side's run) and the reference at the same composite (its run, read
    stage by stage). -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v55_eq, Cert.Sage.Ref.value, a0, a1, a2, a3, a4, a5, a6, a7, a8, a9, a10]
  simp only [nbrMean_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
